-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S4096x512 : Shape := ⟨2, ![4096, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S8x2048x512 .f32) (main_arg1 : FVec F S4096x512 .f32) (main_arg2 : FVec F S4096x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Kernel.lean ====
abbrev S8x2048x512 : Shape := ⟨3, ![8, 2048, 512]⟩
abbrev S4096x512 : Shape := ⟨2, ![4096, 512]⟩
abbrev S16384x512 : Shape := ⟨2, ![16384, 512]⟩
abbrev S1024x512 : Shape := ⟨2, ![1024, 512]⟩
abbrev S1024x1 : Shape := ⟨2, ![1024, 1]⟩
abbrev S512x512 : Shape := ⟨2, ![512, 512]⟩
abbrev S1024 : Shape := ⟨1, ![1024]⟩

abbrev nBuf : Space → Nat
  | .hbm => 8
  | .vmem => 6
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S16384x512, .f32⟩
  | .hbm, ⟨4, _⟩ => ⟨S4096x512, .bf16⟩
  | .hbm, ⟨5, _⟩ => ⟨S4096x512, .bf16⟩
  | .hbm, ⟨6, _⟩ => ⟨S16384x512, .f32⟩
  | .hbm, ⟨7, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v6 : BitVec 32 := Scalar.muli c0_i32 c512_i32
  v6
def k0_off1 (c0_i32 : BitVec 32) : Fin 2 → Nat :=
  let c512_i32 : BitVec 32 := 512#32
  let v6 : BitVec 32 := Scalar.muli c0_i32 c512_i32
  let v7 : BitVec 32 := v6
  let v8 : Index := Scalar.indexCast v7
  let c0_3 : Index := 0#32
  ![v8.toNat, 0]
def k0_mult2 : BitVec 32 :=
  let c1_i32 : BitVec 32 := 1#32
  let c512_i32_9 : BitVec 32 := 512#32
  let v32 : BitVec 32 := Scalar.muli c1_i32 c512_i32_9
  v32
def k0_mult3 : BitVec 32 :=
  let c2_i32 : BitVec 32 := 2#32
  let c512_i32_16 : BitVec 32 := 512#32
  let v58 : BitVec 32 := Scalar.muli c2_i32 c512_i32_16
  v58
def k0_mult4 : BitVec 32 :=
  let c3_i32 : BitVec 32 := 3#32
  let c512_i32_23 : BitVec 32 := 512#32
  let v84 : BitVec 32 := Scalar.muli c3_i32 c512_i32_23
  v84
def k0_mult5 : BitVec 32 :=
  let c4_i32 : BitVec 32 := 4#32
  let c512_i32_30 : BitVec 32 := 512#32
  let v110 : BitVec 32 := Scalar.muli c4_i32 c512_i32_30
  v110
def k0_mult6 : BitVec 32 :=
  let c5_i32 : BitVec 32 := 5#32
  let c512_i32_37 : BitVec 32 := 512#32
  let v136 : BitVec 32 := Scalar.muli c5_i32 c512_i32_37
  v136
def k0_mult7 : BitVec 32 :=
  let c6_i32 : BitVec 32 := 6#32
  let c512_i32_44 : BitVec 32 := 512#32
  let v162 : BitVec 32 := Scalar.muli c6_i32 c512_i32_44
  v162
def k0_mult8 : BitVec 32 :=
  let c7_i32 : BitVec 32 := 7#32
  let c512_i32_51 : BitVec 32 := 512#32
  let v188 : BitVec 32 := Scalar.muli c7_i32 c512_i32_51
  v188
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x512_S16384x512 : S8x2048x512.ShapeCasts S16384x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  broadcasts_S1024x1_S1024x512 : S1024x1.Broadcasts S1024x512
  shapeCasts_S16384x512_S8x2048x512 : S16384x512.ShapeCasts S8x2048x512
  dot_S1024x512_S512x512_S1024x512_1_1_0_0_n_n_wf : DotDims.WF S1024x512 S512x512 S1024x512 [1] [1] [0] [0] [] []
  dot_S1024x512_S512x512_S1024x512_1_0_0_1_n_n_wf : DotDims.WF S1024x512 S512x512 S1024x512 [1] [0] [0] [1] [] []
  hrank0 : 0 < grid0.rank
  k0_mult1_dvd : 512 ∣ k0_mult1.toNat
  k0_off1_inb : ∀ (r : Fin 8), ∀ a, (k0_off1 (BitVec.ofNat 32 r.val)) a + S512x512.size a ≤ S4096x512.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S4096x512 : Shape := ⟨2, ![4096, 512]⟩
abbrev S16384x512 : Shape := ⟨2, ![16384, 512]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S16384x512, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x512, .f32⟩
  | .hbm, ⟨20, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S8x2048x512_S16384x512 : S8x2048x512.ShapeCasts S16384x512
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  shapeCasts_S16384x512_S8x2048x512 : S16384x512.ShapeCasts S8x2048x512
  dot_S16384x512_S4096x512_S16384x4096_1_1_0_0_n_n_wf : DotDims.WF S16384x512 S4096x512 S16384x4096 [1] [1] [0] [0] [] []
  dot_S16384x4096_S4096x512_S16384x512_1_0_0_1_n_n_wf : DotDims.WF S16384x4096 S4096x512 S16384x512 [1] [0] [0] [1] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.StepVec.lean ====
/-
  The kernel body as eight applications of one chunk step.

  The body streams over the 4096 dictionary rows in eight chunks of 512.  With `xb` the block of 1024 tokens,
  `kc` a chunk of the key dictionary and `vc` the same chunk of the value dictionary, one step takes the running
  maximum `m`, normaliser `l` and unnormalised read `acc` to

    sc = xb · kcᵀ,   m' = max m (rowmax sc),   α = exp (m - m'),   p = exp (sc - m'),
    l' = α · l + rowsum p,   acc' = α · acc + p · vc.

  The block written back is `acc₈ · (1 / l₈)` from `m₀ = neg_big`, `l₀ = 0`, `acc₀ = 0`.  This module states the step once
  (`stepV`), composes it eight times (`bodyV`) and shows that what the frame run found in the output's staging buffer
  is that composition.
-/
import proofs.«420344_j66090956750981_3_alg».proof.Proof.Gen.KernelIdeal.Frame
import Idealize.ShloMosaic.Lib.Pipeline.Value

set_option maxRecDepth 16384

noncomputable section

namespace Cert.DictRead

open Idealize.ShloMosaic Idealize.ShloMosaic.TcCoe Idealize.ShloMosaic.Tactic Idealize.SL.Sem
open Cert.KernelIdeal Cert.KernelIdeal.Gen

variable {F : FTy → Type} [FloatOps F] [Named F]

/-- The running state of a block of 1024 tokens: maximum, normaliser (one column each) and unnormalised read. -/
abbrev StV (F : FTy → Type) : Type := FVec F S1024x1 .f32 × FVec F S1024x1 .f32 × FVec F S1024x512 .f32

/-- The scores of the block against one chunk of keys: `xb · kcᵀ`. -/
def scoresV (xb : FVec F S1024x512 .bf16) (kc : Vec F S512x512 .bf16) : FVec F S1024x512 .f32 :=
  matmul dot_S1024x512_S512x512_S1024x512_1_1_0_0_n_n none xb (shapeCast S512x512 kc shapeCasts_S512x512_S512x512)
    (constant S1024x512 .f32 0x00000000#32)

/-- The new running maximum: the old one against the chunk's row maxima. -/
def maxV (m : FVec F S1024x1 .f32) (sc : FVec F S1024x512 .f32) : FVec F S1024x1 .f32 :=
  maximumf m (shapeCast S1024x1 (multiReduction .maximumf [1] S1024 sc 0xFF800000#32 reduces_S1024x512_S1024 (.inl rfl) rfl)
    shapeCasts_S1024_S1024x1)

/-- The chunk's weights `exp (sc - m')`. -/
def weightsV (sc : FVec F S1024x512 .f32) (m' : FVec F S1024x1 .f32) : FVec F S1024x512 .f32 :=
  exp (subf sc (broadcastTo S1024x512 m' broadcasts_S1024x1_S1024x512))

/-- One chunk step. -/
def stepV (xb : FVec F S1024x512 .bf16) (kc vc : Vec F S512x512 .bf16) (st : StV F) : StV F :=
  (maxV st.1 (scoresV xb kc),
   addf (mulf (exp (subf st.1 (maxV st.1 (scoresV xb kc)))) st.2.1)
     (shapeCast S1024x1 (multiReduction .add [1] S1024 (weightsV (scoresV xb kc) (maxV st.1 (scoresV xb kc))) 0x00000000#32
       reduces_S1024x512_S1024 (.inl rfl) rfl) shapeCasts_S1024_S1024x1),
   addf (mulf (broadcastTo S1024x512 (exp (subf st.1 (maxV st.1 (scoresV xb kc)))) broadcasts_S1024x1_S1024x512) st.2.2)
     (matmul dot_S1024x512_S512x512_S1024x512_1_0_0_1_n_n none
       (truncf .bf16 (weightsV (scoresV xb kc) (maxV st.1 (scoresV xb kc))) bitsLt_bf16_f32)
       (shapeCast S512x512 vc shapeCasts_S512x512_S512x512) (constant S1024x512 .f32 0x00000000#32)))

/-- Chunk `c` (rows `512 c … 512 c + 511`) of a dictionary. -/
abbrev chunkOf (x : Vec F S4096x512 .bf16) (off : Fin 2 → Nat) (inb : ∀ a, off a + S512x512.size a ≤ S4096x512.size a) :
    Vec F S512x512 .bf16 := View.ld x (Rect.unit (s := S4096x512) off S512x512.size inb)

/-- The state before the first chunk: maximum `neg_big`, empty sums. -/
def initV : StV F :=
  (broadcast S1024x1 (Named.named κ "neg_big" 0xF149F2CA#32 : F .f32),
   broadcast S1024x1 (Scalar.ofBits .f32 0x00000000#32 : F .f32),
   broadcast S1024x512 (Scalar.ofBits .f32 0x00000000#32 : F .f32))

/-- The token block as the matrix unit reads it. -/
def tokensV (x0 : Vec F S1024x512 .f32) : FVec F S1024x512 .bf16 :=
  truncf .bf16 (shapeCast S1024x512 x0 shapeCasts_S1024x512_S1024x512) bitsLt_bf16_f32

/-- The block written back from a final state: the read times the reciprocal of the normaliser. -/
def finishV (st : StV F) : FVec F S1024x512 .f32 :=
  mulf st.2.2 (broadcastTo S1024x512 (divf (broadcast S1024x1 (Scalar.ofBits .f32 0x3F800000#32 : F .f32)) st.2.1)
    broadcasts_S1024x1_S1024x512)

/-- The state after all eight chunks of the two dictionaries. -/
def runV (x0 : Vec F S1024x512 .f32) (x1 x2 : Vec F S4096x512 .bf16) : StV F :=
  stepV (tokensV x0) (chunkOf x1 ![3584, 0] (by decide)) (chunkOf x2 ![3584, 0] (by decide)) <|
  stepV (tokensV x0) (chunkOf x1 ![3072, 0] (by decide)) (chunkOf x2 ![3072, 0] (by decide)) <|
  stepV (tokensV x0) (chunkOf x1 ![2560, 0] (by decide)) (chunkOf x2 ![2560, 0] (by decide)) <|
  stepV (tokensV x0) (chunkOf x1 ![2048, 0] (by decide)) (chunkOf x2 ![2048, 0] (by decide)) <|
  stepV (tokensV x0) (chunkOf x1 ![1536, 0] (by decide)) (chunkOf x2 ![1536, 0] (by decide)) <|
  stepV (tokensV x0) (chunkOf x1 ![1024, 0] (by decide)) (chunkOf x2 ![1024, 0] (by decide)) <|
  stepV (tokensV x0) (chunkOf x1 ![512, 0] (by decide)) (chunkOf x2 ![512, 0] (by decide)) <|
  stepV (tokensV x0) (chunkOf x1 ![0, 0] (by decide)) (chunkOf x2 ![0, 0] (by decide)) initV

/-- The body's block as a function of its three input blocks. -/
def bodyV (x0 : Vec F S1024x512 .f32) (x1 x2 : Vec F S4096x512 .bf16) : FVec F S1024x512 .f32 :=
  finishV (runV x0 x1 x2)

/-- What the run leaves in the output's staging buffer is `bodyV` of the input blocks. -/
theorem out_eq_bodyV (c : Dev nD) (i : grid0.Coords) (arg1 : Memref sig .tc .vmem S1024x512 .f32) (harg1 : arg1.IsWhole)
    (arg2 : Memref sig .tc .vmem S4096x512 .bf16) (harg2 : arg2.IsWhole) (arg3 : Memref sig .tc .vmem S4096x512 .bf16)
    (harg3 : arg3.IsWhole) (arg4 : Memref sig .tc .vmem S1024x512 .f32) (harg4 : arg4.IsWhole)
    (x0 : Vec F S1024x512 .f32) (x1 x2 : Vec F S4096x512 .bf16) :
    out0_A_3 c i arg1 harg1 arg2 harg2 arg3 harg3 arg4 harg4 x0 x1 x2 = bodyV x0 x1 x2 := by
  unfold out0_A_3
  rw [View.read_writes_eq_canon _ _ _ (cover0_A_3 c i arg1 harg1 arg2 harg2 arg3 harg3 arg4 harg4 x0 x1 x2)]
  unfold kernelRun0_A
  dsimp only
  sl_unfold_words
  have hz : (![0, 0] : Fin 2 → Nat) = fun _ => 0 := by funext a; fin_cases a <;> rfl
  rw [View.canon_unit_zero hz]
  simp only [View.readAt_eq_ld, harg1.read_unread, harg2.read_unread, harg3.read_unread,
    View.ld_unit_zero (S := S1024x512) hz]
  rfl

end Cert.DictRead

end
-- ==== Proof.RowDefs.lean ====
/-
  One row of the dictionary read, as arithmetic on the extended reals.

  For one token (a row of scores `s n = ⟨x, c_n⟩` against the 4096 dictionary keys) and one output column
  (`v n` the column's entry of value row `n`) both programs compute the softmax-weighted average
  `∑ n, softmax(s) n * v n`.  The reference does it directly: subtract the row maximum, exponentiate, divide by the
  sum, contract with `v` (`direct`).  The kernel streams over the keys in chunks, keeping a running maximum `m`,
  a running normaliser `l` and a running unnormalised read `a`, rescaling both by `exp (m - m')` whenever the
  maximum moves, and divides once at the end (`chunkStep`, `runChunks`, `streamed`).  The running maximum starts
  at `-∞`, where `exp (-∞ - m') = 0` wipes the (zero) initial sums.
-/
import Idealize.ShloMosaic.PureOps.Ideal

noncomputable section

namespace Cert.DictRead

open Idealize.ShloMosaic

/-- One chunk of the streamed softmax for one row and one output column: the new maximum, and the normaliser and the
    read each rescaled by `exp (m - m')` and extended by the chunk's terms `exp (s j - m')`. -/
def chunkStep {n : ℕ} (s v : Fin n → EReal) (st : EReal × EReal × EReal) : EReal × EReal × EReal :=
  (max st.1 (Finset.univ.fold max ⊥ s),
   Ideal.exp (st.1 - max st.1 (Finset.univ.fold max ⊥ s)) * st.2.1
     + ∑ j, Ideal.exp (s j - max st.1 (Finset.univ.fold max ⊥ s)),
   Ideal.exp (st.1 - max st.1 (Finset.univ.fold max ⊥ s)) * st.2.2
     + ∑ j, Ideal.exp (s j - max st.1 (Finset.univ.fold max ⊥ s)) * v j)

/-- The state after the first `k` chunks, from maximum `-∞` and empty sums. -/
def runChunks {n : ℕ} (s v : ℕ → Fin n → EReal) : ℕ → EReal × EReal × EReal
  | 0 => (⊥, 0, 0)
  | k + 1 => chunkStep (s k) (v k) (runChunks s v k)

/-- The streamed value after `k` chunks: the unnormalised read times the reciprocal of the normaliser. -/
def streamed {n : ℕ} (s v : ℕ → Fin n → EReal) (k : ℕ) : EReal :=
  (runChunks s v k).2.2 * Ideal.div 1 (runChunks s v k).2.1

/-- The direct value: the softmax weights `exp (s n - M) / ∑ exp (s n' - M)` contracted with `v`, `M` the row maximum
    (taken from `-∞`, and once more against `-∞`, as the reference writes it; the sum starts from `0`). -/
def direct {N : ℕ} (s v : Fin N → EReal) : EReal :=
  ∑ n, Ideal.div (Ideal.exp (s n - max ⊥ (Finset.univ.fold max ⊥ s)))
      (0 + ∑ n', Ideal.exp (s n' - max ⊥ (Finset.univ.fold max ⊥ s))) * v n

end Cert.DictRead

end
-- ==== Proof.StepApply.lean ====
/-
  One chunk step read at a row and a column.

  At the ideal values every operation of the step is pointwise except the two products, the two row reductions and the
  column broadcasts; read at token `r` (and output column `d`) the step is the scalar step `chunkStep` on the row of scores
  `s j = ∑ k, xb[r, k] * kc[j, k]` and the value column `v j = vc[j, d]`.
-/
import proofs.«420344_j66090956750981_3_alg».proof.Proof.StepVec
import proofs.«420344_j66090956750981_3_alg».proof.Proof.RowDefs
import Idealize.ShloMosaic.Lib.ValueIdx
import Idealize.ShloMosaic.Lib.Pipeline.Value
import Idealize.ShloMosaic.PureOps.Ideal.Laws

set_option maxRecDepth 16384

noncomputable section

namespace Cert.DictRead

open Idealize.ShloMosaic Idealize.ShloMosaic.ValueIdx
open Cert.KernelIdeal Cert.KernelIdeal.Gen

/-! ## Layout: a column from a vector, a column broadcast along its rows -/

/-- A vector of 1024 entries cast to a column: entry `r` of the column is entry `r` of the vector. -/
theorem col_apply {α : Type} (v : S1024.Idx → α) (h : S1024.ShapeCasts S1024x1) (r : Fin 1024) (z : Fin 1) :
    shapeCast S1024x1 v h (ix2 r z) = v (ix1 r) :=
  shapeCast_apply v h (ix2 r z) (ix1 r) (by
    rewrite [Shape.rowMajor_val_one, Shape.rowMajor_val_two]
    have hz : z.val = 0 := by have := z.isLt; omega
    show r.val = r.val * 1 + z.val
    omega)

/-- A column broadcast along its rows: entry `(r, d)` is entry `r` of the column. -/
theorem bcol_apply {α : Type} (v : S1024x1.Idx → α) (h : S1024x1.Broadcasts S1024x512) (r : Fin 1024) (d : Fin 512) :
    broadcastTo S1024x512 v h (ix2 r d) = v (ix2 r 0) :=
  broadcastTo_apply v h (ix2 r d) (ix2 r 0) (fun a => by
    match a with
    | ⟨0, _⟩ => show r.val = if (1024 : Nat) = 1 then 0 else r.val; rw [if_neg (by decide)]
    | ⟨1, _⟩ => show 0 = if (1 : Nat) = 1 then 0 else d.val; rw [if_pos rfl])

/-! ## The two products read at an index -/

theorem lhsK_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhsK_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhsK_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhsK_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The scores: token `r` against key `j` of the chunk is the inner product of the two rows. -/
theorem scoresV_apply (xb : FVec Ideal S1024x512 .bf16) (kc : FVec Ideal S512x512 .bf16) (r : Fin 1024) (j : Fin 512) :
    scoresV (F := Ideal) xb kc (ix2 r j) = ∑ k : Fin 512, xb (ix2 r k) * kc (ix2 j k) := by
  unfold scoresV
  rw [shapeCast_self]
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 r j) ((ValueIdx.contrEquiv1 dot_S1024x512_S512x512_S1024x512_1_1_0_0_n_n 512 rfl rfl).symm k) = ix2 r k := funext fun a => Fin.ext (by
    match a with
    | ⟨0, _⟩ => exact lhsK_0 _ _
    | ⟨1, _⟩ => exact (lhsK_1 _ _).trans hk)
  have er : dot_S1024x512_S512x512_S1024x512_1_1_0_0_n_n.rhsIdx (ix2 r j) ((ValueIdx.contrEquiv1 dot_S1024x512_S512x512_S1024x512_1_1_0_0_n_n 512 rfl rfl).symm k) = ix2 j k := funext fun a => Fin.ext (by
    match a with
    | ⟨0, _⟩ => exact rhsK_0 _ _
    | ⟨1, _⟩ => exact (rhsK_1 _ _).trans hk)
  rw [el, er]

theorem lhsV_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhsV_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhsV_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhsV_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The weighted read of a chunk: weights of token `r` against column `d` of the chunk's values. -/
theorem readV_apply (p : FVec Ideal S1024x512 .bf16) (vc : FVec Ideal S512x512 .bf16) (r : Fin 1024) (d : Fin 512) :
    matmul (F := Ideal) dot_S1024x512_S512x512_S1024x512_1_0_0_1_n_n none p (shapeCast S512x512 vc shapeCasts_S512x512_S512x512) (constant S1024x512 .f32 0x00000000#32) (ix2 r d)
      = ∑ j : Fin 512, p (ix2 r j) * vc (ix2 j d) := by
  rw [shapeCast_self]
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r d) ((ValueIdx.contrEquiv1 dot_S1024x512_S512x512_S1024x512_1_0_0_1_n_n 512 rfl rfl).symm k) = ix2 r k := funext fun a => Fin.ext (by
    match a with
    | ⟨0, _⟩ => exact lhsV_0 _ _
    | ⟨1, _⟩ => exact (lhsV_1 _ _).trans hk)
  have er : dot_S1024x512_S512x512_S1024x512_1_0_0_1_n_n.rhsIdx (ix2 r d) ((ValueIdx.contrEquiv1 dot_S1024x512_S512x512_S1024x512_1_0_0_1_n_n 512 rfl rfl).symm k) = ix2 k d := funext fun a => Fin.ext (by
    match a with
    | ⟨0, _⟩ => exact (rhsV_0 _ _).trans hk
    | ⟨1, _⟩ => exact rhsV_1 _ _)
  rw [el, er]

/-! ## The two row reductions read at a row -/

/-- The pattern of `-∞` denotes the bottom of the extended reals. -/
theorem ofBits_neg_inf : Ideal.ofBits .f32 0xFF800000#32 = ⊥ := by simp [Ideal.ofBits, Ideal.ieee]

/-- Row `r` with column `j` put back is `(r, j)`. -/
theorem lift_row (h : S1024x512.Reduces [1] S1024) (r : Fin 1024) (j : Fin (S1024x512.size 1)) :
    h.lift (ix1 r) j = ix2 r (⟨j.val, j.isLt⟩ : Fin 512) := by
  funext c; apply Fin.ext
  fin_cases c <;> rfl

/-- The row maximum from `-∞`, as a column. -/
theorem rowmax_apply (sc : FVec Ideal S1024x512 .f32) (hacc : (0xFF800000#32 : BitVec 32) = 0xFF800000#32)
    (hφ : FKind.Formats .f32) (r : Fin 1024) :
    shapeCast S1024x1 (multiReduction .maximumf [1] S1024 sc 0xFF800000#32 reduces_S1024x512_S1024 hφ hacc) shapeCasts_S1024_S1024x1 (ix2 r 0)
      = Finset.univ.fold max ⊥ (fun j : Fin 512 => sc (ix2 r j)) := by
  refine (col_apply _ _ r 0).trans ?_
  refine (Ideal.multiReduction_maximumf_single sc 0xFF800000#32 reduces_S1024x512_S1024 hφ hacc (ix1 r)).trans ?_
  have hf : (sc ∘ (reduces_S1024x512_S1024).lift (ix1 r)) = fun j : Fin 512 => sc (ix2 r j) :=
    funext fun j => congrArg sc (lift_row _ r j)
  rw [hf]
  show Finset.univ.fold max (Ideal.ofBits .f32 0xFF800000#32) _ = _
  rw [ofBits_neg_inf]
  rfl

/-- The row sum, as a column. -/
theorem rowsum_apply (p : FVec Ideal S1024x512 .f32) (hacc : (0x00000000#32 : BitVec 32) = 0x00000000#32)
    (hφ : FKind.Formats .f32) (r : Fin 1024) :
    shapeCast S1024x1 (multiReduction .add [1] S1024 p 0x00000000#32 reduces_S1024x512_S1024 hφ hacc) shapeCasts_S1024_S1024x1 (ix2 r 0)
      = ∑ j : Fin 512, p (ix2 r j) := by
  refine (col_apply _ _ r 0).trans ?_
  refine (Ideal.multiReduction_add_single p 0x00000000#32 reduces_S1024x512_S1024 hφ hacc (ix1 r)).trans ?_
  exact Finset.sum_congr rfl fun j _ => congrArg p (lift_row _ r j)

/-! ## The step at a row and a column -/

section Step

variable (xb : FVec Ideal S1024x512 .bf16) (kc vc : FVec Ideal S512x512 .bf16) (st : StV Ideal) (r : Fin 1024)

/-- The row of scores of token `r` against the chunk's keys. -/
abbrev rowScores : Fin 512 → EReal := fun j => ∑ k : Fin 512, xb (ix2 r k) * kc (ix2 j k)

/-- The new maximum of row `r`. -/
theorem maxV_apply :
    maxV (F := Ideal) st.1 (scoresV xb kc) (ix2 r 0) = max (st.1 (ix2 r 0)) (Finset.univ.fold max ⊥ (rowScores xb kc r)) := by
  unfold maxV
  refine (ValueIdx.maximumf_apply _ _ _).trans ?_
  rw [rowmax_apply]
  simp only [scoresV_apply]

/-- The weights of row `r`. -/
theorem weightsV_apply (sc : FVec Ideal S1024x512 .f32) (m' : FVec Ideal S1024x1 .f32) (j : Fin 512) :
    weightsV (F := Ideal) sc m' (ix2 r j) = Ideal.exp (sc (ix2 r j) - m' (ix2 r 0)) := by
  unfold weightsV
  show Ideal.exp (subf sc (broadcastTo S1024x512 m' broadcasts_S1024x1_S1024x512) (ix2 r j)) = _
  rw [ValueIdx.subf_apply, bcol_apply]

/-- The step's maximum at row `r` is the scalar step's. -/
theorem stepV_max :
    (stepV (F := Ideal) xb kc vc st).1 (ix2 r 0)
      = (chunkStep (rowScores xb kc r) (fun j => vc (ix2 j (0 : Fin 512))) (st.1 (ix2 r 0), st.2.1 (ix2 r 0), st.2.2 (ix2 r 0))).1 :=
  maxV_apply xb kc st r

/-- The step's normaliser at row `r` is the scalar step's. -/
theorem stepV_norm (d : Fin 512) :
    (stepV (F := Ideal) xb kc vc st).2.1 (ix2 r 0)
      = (chunkStep (rowScores xb kc r) (fun j => vc (ix2 j d)) (st.1 (ix2 r 0), st.2.1 (ix2 r 0), st.2.2 (ix2 r d))).2.1 := by
  unfold stepV chunkStep
  dsimp only
  refine (ValueIdx.addf_apply _ _ _).trans ?_
  rw [rowsum_apply, ValueIdx.mulf_apply]
  show Ideal.exp (subf st.1 (maxV st.1 (scoresV xb kc)) (ix2 r 0)) * _ + _ = _
  rw [ValueIdx.subf_apply, maxV_apply]
  simp only [weightsV_apply, maxV_apply, scoresV_apply]

/-- The step's read at row `r` and column `d` is the scalar step's. -/
theorem stepV_read (d : Fin 512) :
    (stepV (F := Ideal) xb kc vc st).2.2 (ix2 r d)
      = (chunkStep (rowScores xb kc r) (fun j => vc (ix2 j d)) (st.1 (ix2 r 0), st.2.1 (ix2 r 0), st.2.2 (ix2 r d))).2.2 := by
  unfold stepV chunkStep
  dsimp only
  refine (ValueIdx.addf_apply _ _ _).trans ?_
  rw [readV_apply, ValueIdx.mulf_apply, bcol_apply]
  show Ideal.exp (subf st.1 (maxV st.1 (scoresV xb kc)) (ix2 r 0)) * _ + _ = _
  rw [ValueIdx.subf_apply, maxV_apply]
  simp only [ValueIdx.truncf_apply, weightsV_apply, maxV_apply, scoresV_apply]

end Step

end Cert.DictRead

end
-- ==== Proof.BodyRow.lean ====
/-
  The body's block read at a token and a column: the streamed softmax read of that token's scores.

  Entry `(r, d)` of the block the body writes back is `streamed s v 8` for the chunk rows
  `s c j = ∑ k, x[r, k] * keys[512 c + j, k]` and `v c j = values[512 c + j, d]`: eight scalar steps, one per chunk of the
  dictionaries, from `(-∞, 0, 0)`, then the one division.
-/
import proofs.«420344_j66090956750981_3_alg».proof.Proof.StepApply

set_option maxRecDepth 16384

noncomputable section

namespace Cert.DictRead

open Idealize.ShloMosaic Idealize.ShloMosaic.ValueIdx
open Cert.KernelIdeal Cert.KernelIdeal.Gen

/-- The state of token `r` (and column `d` of the read) inside a block's state. -/
def tripleAt (st : StV Ideal) (r : Fin 1024) (d : Fin 512) : EReal × EReal × EReal :=
  (st.1 (ix2 r 0), st.2.1 (ix2 r 0), st.2.2 (ix2 r d))

/-- One block step, seen from token `r` and column `d`, is one scalar step. -/
theorem stepV_triple (xb : FVec Ideal S1024x512 .bf16) (kc vc : FVec Ideal S512x512 .bf16) (st : StV Ideal) (r : Fin 1024)
    (d : Fin 512) :
    tripleAt (stepV (F := Ideal) xb kc vc st) r d
      = chunkStep (rowScores xb kc r) (fun j => vc (ix2 j d)) (tripleAt st r d) :=
  Prod.ext (maxV_apply xb kc st r) (Prod.ext (stepV_norm xb kc vc st r d) (stepV_read xb kc vc st r d))

/-- The score of token `r` of the block against key `n` of the dictionary (`0` past its end). -/
def keyScore (xb : FVec Ideal S1024x512 .bf16) (x1 : FVec Ideal S4096x512 .bf16) (r : Fin 1024) (n : ℕ) : EReal :=
  if h : n < 4096 then ∑ k : Fin 512, xb (ix2 r k) * x1 (ix2 (⟨n, h⟩ : Fin 4096) k) else 0

/-- Entry `(n, d)` of the value dictionary (`0` past its end). -/
def valEntry (x2 : FVec Ideal S4096x512 .bf16) (d : Fin 512) (n : ℕ) : EReal :=
  if h : n < 4096 then x2 (ix2 (⟨n, h⟩ : Fin 4096) d) else 0

/-- A chunk of a dictionary read at a row and a column: the dictionary at the chunk's offset plus the row. -/
theorem chunkOf_apply (x : FVec Ideal S4096x512 .bf16) (off : Fin 2 → Nat)
    (inb : ∀ a, off a + S512x512.size a ≤ S4096x512.size a) (j k : Fin 512) (n : Fin 4096)
    (h0 : off 0 + j.val = n.val) (h1 : off 1 = 0) :
    chunkOf (F := Ideal) x off inb (ix2 j k) = x (ix2 n k) :=
  congrArg x (funext fun a => Fin.ext (by
    match a with
    | ⟨0, _⟩ => show off 0 + 1 * j.val = n.val; omega
    | ⟨1, _⟩ => show off 1 + 1 * k.val = k.val; omega))

/-- The scores of token `r` against chunk `c` of the keys. -/
theorem rowScores_chunk (xb : FVec Ideal S1024x512 .bf16) (x1 : FVec Ideal S4096x512 .bf16) (r : Fin 1024) (c : ℕ) (hc : c < 8)
    (off : Fin 2 → Nat) (inb : ∀ a, off a + S512x512.size a ≤ S4096x512.size a) (hoff : off = ![512 * c, 0]) :
    rowScores xb (chunkOf (F := Ideal) x1 off inb) r = fun j => keyScore xb x1 r (512 * c + j.val) := by
  funext j
  have hj := j.isLt
  unfold keyScore
  rw [dif_pos (by omega)]
  refine Finset.sum_congr rfl fun k _ => ?_
  rw [chunkOf_apply x1 off inb j k ⟨512 * c + j.val, by omega⟩ (by subst hoff; rfl) (by subst hoff; rfl)]

/-- Column `d` of chunk `c` of the values. -/
theorem valCol_chunk (x2 : FVec Ideal S4096x512 .bf16) (d : Fin 512) (c : ℕ) (hc : c < 8)
    (off : Fin 2 → Nat) (inb : ∀ a, off a + S512x512.size a ≤ S4096x512.size a) (hoff : off = ![512 * c, 0]) :
    (fun j : Fin 512 => chunkOf (F := Ideal) x2 off inb (ix2 j d)) = fun j => valEntry x2 d (512 * c + j.val) := by
  funext j
  have hj := j.isLt
  unfold valEntry
  rw [dif_pos (by omega)]
  exact chunkOf_apply x2 off inb j d ⟨512 * c + j.val, by omega⟩ (by subst hoff; rfl) (by subst hoff; rfl)

/-- The named constant `neg_big` denotes `-∞`. -/
theorem neg_big_eq : Named.named (F := Ideal) κ "neg_big" (φ := .f32) 0xF149F2CA#32 = (⊥ : EReal) :=
  IdealRules.named_const.ideal_named_scalar _ _ _ _ rfl

/-- Before the first chunk every token is at `(-∞, 0, 0)`. -/
theorem tripleAt_init (r : Fin 1024) (d : Fin 512) : tripleAt (initV (F := Ideal)) r d = ((⊥ : EReal), (0 : EReal), (0 : EReal)) := by
  unfold tripleAt initV
  refine Prod.ext ?_ (Prod.ext ?_ ?_)
  · exact neg_big_eq
  · exact Ideal.ofBits_zero_f32
  · exact Ideal.ofBits_zero_f32

/-- The pattern of `1.0` denotes `1`. -/
theorem ofBits_one : Ideal.ofBits .f32 0x3F800000#32 = 1 := IdealRules.sign_bit.ideal_onePat .f32

/-- After the eight chunks, token `r` and column `d` are at the eighth scalar state. -/
theorem runV_triple (x0 : FVec Ideal S1024x512 .f32) (x1 x2 : FVec Ideal S4096x512 .bf16) (r : Fin 1024) (d : Fin 512) :
    tripleAt (runV (F := Ideal) x0 x1 x2) r d
      = runChunks (fun c (j : Fin 512) => keyScore (tokensV x0) x1 r (512 * c + j.val)) (fun c (j : Fin 512) => valEntry x2 d (512 * c + j.val)) 8 := by
  unfold runV
  simp only [stepV_triple, tripleAt_init]
  rw [rowScores_chunk (tokensV x0) x1 r 7 (by decide) _ _ rfl, valCol_chunk x2 d 7 (by decide) _ _ rfl,
    rowScores_chunk (tokensV x0) x1 r 6 (by decide) _ _ rfl, valCol_chunk x2 d 6 (by decide) _ _ rfl,
    rowScores_chunk (tokensV x0) x1 r 5 (by decide) _ _ rfl, valCol_chunk x2 d 5 (by decide) _ _ rfl,
    rowScores_chunk (tokensV x0) x1 r 4 (by decide) _ _ rfl, valCol_chunk x2 d 4 (by decide) _ _ rfl,
    rowScores_chunk (tokensV x0) x1 r 3 (by decide) _ _ rfl, valCol_chunk x2 d 3 (by decide) _ _ rfl,
    rowScores_chunk (tokensV x0) x1 r 2 (by decide) _ _ rfl, valCol_chunk x2 d 2 (by decide) _ _ rfl,
    rowScores_chunk (tokensV x0) x1 r 1 (by decide) _ _ rfl, valCol_chunk x2 d 1 (by decide) _ _ rfl,
    rowScores_chunk (tokensV x0) x1 r 0 (by decide) _ _ rfl, valCol_chunk x2 d 0 (by decide) _ _ rfl]
  rfl

/-- Entry `(r, d)` of the block the body writes back is the streamed read. -/
theorem bodyV_apply (x0 : FVec Ideal S1024x512 .f32) (x1 x2 : FVec Ideal S4096x512 .bf16) (r : Fin 1024) (d : Fin 512) :
    bodyV (F := Ideal) x0 x1 x2 (ix2 r d)
      = streamed (fun c (j : Fin 512) => keyScore (tokensV x0) x1 r (512 * c + j.val)) (fun c (j : Fin 512) => valEntry x2 d (512 * c + j.val)) 8 := by
  unfold streamed
  rw [← runV_triple x0 x1 x2 r d]
  unfold bodyV finishV tripleAt
  refine (ValueIdx.mulf_apply _ _ _).trans ?_
  rw [bcol_apply, ValueIdx.divf_apply]
  show _ * Ideal.div (Ideal.ofBits .f32 0x3F800000#32) _ = _
  rw [ofBits_one]

end Cert.DictRead

end
-- ==== Proof.KernelSpec.lean ====
/-
  The kernel's result before its last reshape, as one function of the three arrays the region finds.

  Entry `(b, d)` of the [16384, 512] result is the streamed softmax read of token `b`'s scores against the whole key
  dictionary, contracted with column `d` of the value dictionary.  Token `b` lies in block `b / 1024` of the grid, and the
  block the body writes back there agrees with this function entry by entry.
-/
import proofs.«420344_j66090956750981_3_alg».proof.Proof.BodyRow

set_option maxRecDepth 16384

noncomputable section

namespace Cert.DictRead

open Idealize.ShloMosaic Idealize.ShloMosaic.ValueIdx
open Cert.KernelIdeal Cert.KernelIdeal.Gen

/-- The score of token `b` against key `n` (`0` past the dictionary's end). -/
def tokenScore (X : FVec Ideal S16384x512 .f32) (K : FVec Ideal S4096x512 .bf16) (b : Fin 16384) (n : ℕ) : EReal :=
  if h : n < 4096 then ∑ k : Fin 512, X (ix2 b k) * K (ix2 (⟨n, h⟩ : Fin 4096) k) else 0

/-- The kernel's [16384, 512] result as a function of the token array, the key dictionary and the value dictionary. -/
def G (X : FVec Ideal S16384x512 .f32) (K Vv : FVec Ideal S4096x512 .bf16) : FVec Ideal S16384x512 .f32 := fun i =>
  streamed (fun c (j : Fin 512) => tokenScore X K (i 0) (512 * c + j.val)) (fun c (j : Fin 512) => valEntry Vv (i 1) (512 * c + j.val)) 8

/-- The block the body writes back at grid point `t` is `G` on rows `1024 t … 1024 t + 1023`. -/
theorem bodyV_eq_G (X : FVec Ideal S16384x512 .f32) (K Vv : FVec Ideal S4096x512 .bf16)
    (xb : FVec Ideal S1024x512 .f32) (kb vb : FVec Ideal S4096x512 .bf16) (hk : kb = K) (hv : vb = Vv) (t : ℕ)
    (hx : ∀ (r : Fin 1024) (k : Fin 512) (b : Fin 16384), b.val = 1024 * t + r.val → xb (ix2 r k) = X (ix2 b k))
    (r : Fin 1024) (d : Fin 512) (i : S16384x512.Idx) (hi0 : (i 0).val = 1024 * t + r.val) (hi1 : (i 1).val = d.val) :
    bodyV (F := Ideal) xb kb vb (ix2 r d) = G X K Vv i := by
  subst hk hv
  rw [bodyV_apply]
  unfold G
  have hd : i 1 = d := Fin.ext hi1
  rw [hd]
  congr 1
  funext c j
  unfold keyScore tokenScore
  by_cases h : 512 * c + j.val < 4096
  · rw [dif_pos h, dif_pos h]
    refine Finset.sum_congr rfl fun k _ => ?_
    have : tokensV (F := Ideal) xb (ix2 r k) = X (ix2 (i 0) k) := by
      show shapeCast S1024x512 xb shapeCasts_S1024x512_S1024x512 (ix2 r k) = _
      rw [shapeCast_self]
      exact hx r k (i 0) hi0
    rw [this]
  · rw [dif_neg h, dif_neg h]

end Cert.DictRead

end
-- ==== Proof.KernelValue.lean ====
/-
  The idealized kernel's run, read: its result array ends at the reshape of `G` of the reshaped tokens and the two
  dictionaries.

  The grid has sixteen points; point `t` stages rows `1024 t … 1024 t + 1023` of the token array, both dictionaries
  whole, and writes back the same rows of the result.  Each block written back is `G` restricted to its rows
  (`bodyV_eq_G`), the sixteen blocks cover the result, and the one host operation after the region reshapes it.
-/
import proofs.«420344_j66090956750981_3_alg».proof.Proof.KernelSpec
import Idealize.ShloMosaic.Lib.Pipeline.Value
import Idealize.ShloMosaic.Lib.StableHlo.Run
import Idealize.ShloMosaic.Lib.Tactic

set_option maxRecDepth 16384

noncomputable section

namespace Cert.DictRead

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The three arrays as the region finds them: the reshaped tokens, the key dictionary, the value dictionary. -/
abbrev tokArr (c : Dev nD) : FVec Ideal S16384x512 .f32 := V m c main_v0
abbrev keyArr (c : Dev nD) : FVec Ideal S4096x512 .bf16 := V m c main_v1
abbrev valArr (c : Dev nD) : FVec Ideal S4096x512 .bf16 := V m c main_v2

/-- The three input blocks at a grid point, at their literal types. -/
abbrev tokBlk (c : Dev nD) (t : Fin cfg0.N) : FVec Ideal S1024x512 .f32 := iblk m c 0 t
abbrev keyBlk (c : Dev nD) (t : Fin cfg0.N) : FVec Ideal S4096x512 .bf16 := iblk m c 1 t
abbrev valBlk (c : Dev nD) (t : Fin cfg0.N) : FVec Ideal S4096x512 .bf16 := iblk m c 2 t

/-- The block indices over the grid: tokens and result move with the point along the rows, the dictionaries stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the token block at point `t` is row `1024 t + r` of the token array. -/
theorem tokBlk_apply (c : Dev nD) (t : Fin cfg0.N) (r : Fin 1024) (k : Fin 512) (b : Fin 16384)
    (hb : b.val = 1024 * t.val + r.val) : tokBlk m c t (ix2 r k) = tokArr m c (ix2 b k) := by
  obtain ⟨e0, e1, -⟩ := idx_facts t
  unfold tokBlk iblk
  rw [View.read_apply]
  show V m c main_v0 _ = V m c main_v0 _
  congr 1
  funext a
  apply Fin.ext
  match a with
  | ⟨0, _⟩ => show win0_0.index t 0 * 1024 + 1 * r.val = b.val; rw [e0, hb]; omega
  | ⟨1, _⟩ => show win0_0.index t 1 * 512 + 1 * k.val = k.val; rw [e1]; omega

/-- The key block at every point is the whole key dictionary. -/
theorem keyBlk_eq (c : Dev nD) (t : Fin cfg0.N) : keyBlk m c t = keyArr m c := by
  obtain ⟨-, -, e2, e3, -⟩ := idx_facts t
  funext x
  unfold keyBlk iblk
  rw [View.read_apply]
  show V m c main_v1 _ = V m c main_v1 _
  congr 1
  funext a
  apply Fin.ext
  match a with
  | ⟨0, _⟩ => show win0_1.index t 0 * 4096 + 1 * (x 0).val = (x 0).val; rw [e2]; omega
  | ⟨1, _⟩ => show win0_1.index t 1 * 512 + 1 * (x 1).val = (x 1).val; rw [e3]; omega

/-- The value block at every point is the whole value dictionary. -/
theorem valBlk_eq (c : Dev nD) (t : Fin cfg0.N) : valBlk m c t = valArr m c := by
  obtain ⟨-, -, -, -, e4, e5, -⟩ := idx_facts t
  funext x
  unfold valBlk iblk
  rw [View.read_apply]
  show V m c main_v2 _ = V m c main_v2 _
  congr 1
  funext a
  apply Fin.ext
  match a with
  | ⟨0, _⟩ => show win0_2.index t 0 * 4096 + 1 * (x 0).val = (x 0).val; rw [e4]; omega
  | ⟨1, _⟩ => show win0_2.index t 1 * 512 + 1 * (x 1).val = (x 1).val; rw [e5]; omega

/-- What point `t` writes back is block `t` of `G` of the arrays as the region finds them. -/
theorem flushed_eq (c : Dev nD) (t : Fin cfg0.N) :
    (dats m 0 c).flushed 3 t
      = ((cfg0.win 3).blk t).view.read (Elt Ideal) (G (tokArr m c) (keyArr m c) (valArr m c)) := by
  show (cfg0.win 3).cut (grid0.coords t) ((dats m 0 c).after 3 t) = _
  rw [after0_3]
  unfold outsAt0
  rw [out_eq_bodyV]
  obtain ⟨-, -, -, -, -, -, e6, e7⟩ := idx_facts t
  funext y
  show bodyV (tokBlk m c t) (keyBlk m c t) (valBlk m c t) y
    = G (tokArr m c) (keyArr m c) (valArr m c) (((cfg0.win 3).blk t).view.emb y)
  obtain ⟨r, d, rfl⟩ : ∃ (r : Fin 1024) (d : Fin 512), y = ix2 r d := ⟨y 0, y 1, eq_ix2 y⟩
  refine bodyV_eq_G (tokArr m c) (keyArr m c) (valArr m c) (tokBlk m c t) (keyBlk m c t) (valBlk m c t)
    (keyBlk_eq m c t) (valBlk_eq m c t) t.val (fun r k b hb => tokBlk_apply m c t r k b hb) r d _ ?_ ?_
  · show win0_3.index t 0 * 1024 + 1 * r.val = 1024 * t.val + r.val; rw [e6]; omega
  · show win0_3.index t 1 * 512 + 1 * d.val = d.val; rw [e7]; omega

/-- The sixteen blocks cover the result (row `b` is in block `b / 1024`), so the region leaves `G` in it. -/
theorem final (c : Dev nD) : (dats m 0 c).arrAt 3 cfg0.N = G (tokArr m c) (keyArr m c) (valArr m c) :=
  (dats m 0 c).arrAt_eq_of_cover 3 (G (tokArr m c) (keyArr m c) (valArr m c)) (fun t _ => flushed_eq m c t) fun i => by
    have hi0 : (i 0 : Nat) < 16384 := (i 0).isLt
    have hi1 : (i 1 : Nat) < 512 := (i 1).isLt
    have hN : cfg0.N = 16 := N_0
    have hlt : (i 0 : Nat) / 1024 < cfg0.N := by rw [hN]; omega
    obtain ⟨-, -, -, -, -, -, e6, e7⟩ := idx_facts ⟨(i 0 : Nat) / 1024, hlt⟩
    refine ⟨⟨(i 0 : Nat) / 1024, hlt⟩, flush0_3 _, ?_⟩
    show i ∈ ((View.whole main_v3).slice (win0_3.rect ⟨(i 0 : Nat) / 1024, hlt⟩)).set
    rw [View.set_slice_whole, Rect.mem_set_unit]
    intro a
    match a with
    | ⟨0, _⟩ =>
      show win0_3.index ⟨(i 0 : Nat) / 1024, hlt⟩ 0 * 1024 ≤ (i 0 : Nat)
        ∧ (i 0 : Nat) < win0_3.index ⟨(i 0 : Nat) / 1024, hlt⟩ 0 * 1024 + 1024
      rw [e6]; show (i 0 : Nat) / 1024 * 1024 ≤ (i 0 : Nat) ∧ (i 0 : Nat) < (i 0 : Nat) / 1024 * 1024 + 1024; omega
    | ⟨1, _⟩ =>
      show win0_3.index ⟨(i 0 : Nat) / 1024, hlt⟩ 1 * 512 ≤ (i 1 : Nat)
        ∧ (i 1 : Nat) < win0_3.index ⟨(i 0 : Nat) / 1024, hlt⟩ 1 * 512 + 512
      rw [e7]; omega

/-- The host operations before the region: the tokens reshaped, the two dictionaries narrowed (the identity here). -/
theorem tokArr_eq (c : Dev nD) :
    tokArr m c = shapeCast S16384x512 (m ((c.tc : Thread nD τ).loc main_arg0)) shapeCasts_S8x2048x512_S16384x512 := by
  show StableHlo.after hostOps0 (fun b => m (c, b)) (Proc.devRef .tc main_v0) = _
  after_results
  rfl
theorem keyArr_eq (c : Dev nD) :
    keyArr m c = truncf .bf16 (m ((c.tc : Thread nD τ).loc main_arg2)) bitsLt_bf16_f32 := by
  show StableHlo.after hostOps0 (fun b => m (c, b)) (Proc.devRef .tc main_v1) = _
  after_results
theorem valArr_eq (c : Dev nD) :
    valArr m c = truncf .bf16 (m ((c.tc : Thread nD τ).loc main_arg1)) bitsLt_bf16_f32 := by
  show StableHlo.after hostOps0 (fun b => m (c, b)) (Proc.devRef .tc main_v2) = _
  after_results

/-- The host operation after the region reshapes the region's result. -/
theorem result_eq (c : Dev nD) :
    Pipeline.afterTail₀ cfgs (dats m) 0 (V0 m) [hostOps1] c main_v4
      = shapeCast S8x2048x512 (G (tokArr m c) (keyArr m c) (valArr m c)) shapeCasts_S16384x512_S8x2048x512 := by
  unfold Pipeline.afterTail₀
  show StableHlo.after hostOps1 _ (Proc.devRef .tc main_v4) = _
  after_results
  have h : Pipeline.withArrays (cfgs 0).spec c (V0 m c) (fun w => (dats m 0 c).arrAt w (cfgs 0).N) (Proc.devRef .tc main_v3)
      = G (tokArr m c) (keyArr m c) (valArr m c) :=
    (Pipeline.withArrays_arr spec0 launch0.win.arr_inj c (V0 m c) (fun w => (dats m 0 c).arrAt w (cfgs 0).N) 3).trans (final m c)
  rw [h]
  rfl

/-- The idealized kernel's run, read: the result is the reshape of `G` of the reshaped tokens and the two dictionaries;
    the arguments end unchanged. -/
theorem run : θ_run defs (onTc (τ := τ) (main (F := Ideal))) ⟨m, fun _ => 0, ρ⟩ fun r => ∀ c : Dev nD,
      r.2.mem ((c.tc : Thread nD τ).loc main_v4)
        = shapeCast S8x2048x512 (G (shapeCast S16384x512 (m ((c.tc : Thread nD τ).loc main_arg0)) shapeCasts_S8x2048x512_S16384x512)
            (truncf .bf16 (m ((c.tc : Thread nD τ).loc main_arg2)) bitsLt_bf16_f32)
            (truncf .bf16 (m ((c.tc : Thread nD τ).loc main_arg1)) bitsLt_bf16_f32)) shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans
          ((result_eq m c).trans (by rw [tokArr_eq, keyArr_eq, valArr_eq])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.DictRead

end
-- ==== Proof.RowMath.lean ====
/-
  The streamed softmax read equals the direct one on finite rows.

  On finite scores every running maximum after the first chunk is a real `μ`, and the state after `k` chunks is
  `(μ, ∑ exp (s - μ), ∑ exp (s - μ) * v)` over the keys seen so far: the first chunk starts from `-∞`, whose exponential
  `0` wipes the empty sums, and a later chunk rescales both sums by `exp (μ - μ')`, which moves their reference point
  from `μ` to `μ'`.  The final quotient `(∑ exp (s - μ) * v) / ∑ exp (s - μ)` does not depend on `μ`; the direct read is the
  same quotient at `μ` the row maximum.  Eight chunks of 512 keys are the 4096 keys in order.
-/
import proofs.«420344_j66090956750981_3_alg».proof.Proof.RowDefs

noncomputable section

namespace Cert.DictRead

open Idealize.ShloMosaic

/-- The coercion of the reals into the extended reals commutes with finite sums. -/
theorem coe_finset_sum {ι : Type} (S : Finset ι) (f : ι → ℝ) :
    ∑ k ∈ S, ((f k : ℝ) : EReal) = ((∑ k ∈ S, f k : ℝ) : EReal) := by
  induction S using Finset.cons_induction with
  | empty => simp
  | cons a S ha ih => rw [Finset.sum_cons, Finset.sum_cons, ih, EReal.coe_add]

/-- A finite sum of products of reals, taken in the extended reals, is the real sum. -/
theorem coe_sum_mul {ι : Type} [Fintype ι] (f g : ι → ℝ) :
    ∑ k, ((f k : ℝ) : EReal) * ((g k : ℝ) : EReal) = ((∑ k, f k * g k : ℝ) : EReal) := by
  rw [← coe_finset_sum]
  exact Finset.sum_congr rfl fun k _ => (EReal.coe_mul _ _).symm

/-- The maximum of two reals, taken in the extended reals, is a real. -/
theorem max_coe_coe (a b : ℝ) : ∃ c : ℝ, max (a : EReal) (b : EReal) = (c : EReal) := by
  rcases le_total (a : EReal) (b : EReal) with h | h
  · exact ⟨b, max_eq_right h⟩
  · exact ⟨a, max_eq_left h⟩

/-- The maximum of a nonempty finite family of reals, started from `-∞`, is a real. -/
theorem fold_max_coe {ι : Type} (S : Finset ι) (hS : S.Nonempty) (f : ι → ℝ) :
    ∃ μ : ℝ, S.fold max ⊥ (fun j => ((f j : ℝ) : EReal)) = (μ : EReal) := by
  induction hS using Finset.Nonempty.cons_induction with
  | singleton a => exact ⟨f a, by rw [Finset.fold_singleton]; exact max_eq_left bot_le⟩
  | cons a S ha hS ih =>
    obtain ⟨μ, hμ⟩ := ih
    obtain ⟨c, hc⟩ := max_coe_coe (f a) μ
    exact ⟨c, by rw [Finset.fold_cons, hμ, hc]⟩

/-- The first chunk, from maximum `-∞` and empty sums: the state becomes real, the sums taken against the new maximum. -/
theorem chunkStep_init {n : ℕ} (hn : 0 < n) (f g : Fin n → ℝ) :
    ∃ μ' : ℝ, chunkStep (fun j => ((f j : ℝ) : EReal)) (fun j => ((g j : ℝ) : EReal)) (⊥, 0, 0)
      = ((μ' : EReal), ((∑ j, Real.exp (f j - μ') : ℝ) : EReal),
          ((∑ j, Real.exp (f j - μ') * g j : ℝ) : EReal)) := by
  haveI : Nonempty (Fin n) := ⟨⟨0, hn⟩⟩
  obtain ⟨ν, hν⟩ := fold_max_coe Finset.univ Finset.univ_nonempty f
  refine ⟨ν, ?_⟩
  simp only [chunkStep, hν, max_eq_right (bot_le : (⊥ : EReal) ≤ (ν : EReal)), mul_zero, zero_add]
  simp only [← EReal.coe_sub, Ideal.exp_coe, ← EReal.coe_mul, coe_finset_sum]

/-- A later chunk, from a state of reals: the state stays real, both sums rescaled by `exp (μ - μ')`. -/
theorem chunkStep_coe {n : ℕ} (hn : 0 < n) (f g : Fin n → ℝ) (μ L A : ℝ) :
    ∃ μ' : ℝ, chunkStep (fun j => ((f j : ℝ) : EReal)) (fun j => ((g j : ℝ) : EReal))
        ((μ : EReal), (L : EReal), (A : EReal))
      = ((μ' : EReal), ((Real.exp (μ - μ') * L + ∑ j, Real.exp (f j - μ') : ℝ) : EReal),
          ((Real.exp (μ - μ') * A + ∑ j, Real.exp (f j - μ') * g j : ℝ) : EReal)) := by
  haveI : Nonempty (Fin n) := ⟨⟨0, hn⟩⟩
  obtain ⟨ν, hν⟩ := fold_max_coe Finset.univ Finset.univ_nonempty f
  obtain ⟨μ', hμ'⟩ := max_coe_coe μ ν
  refine ⟨μ', ?_⟩
  simp only [chunkStep, hν, hμ']
  simp only [← EReal.coe_sub, Ideal.exp_coe, ← EReal.coe_mul, coe_finset_sum, ← EReal.coe_add]

/-- Moving the reference point of the exponentials from `μ` to `μ'` costs the factor `exp (μ - μ')`. -/
theorem exp_shift_sum {n : ℕ} (f : ℕ → Fin n → ℝ) (S : Finset ℕ) (μ μ' : ℝ) :
    Real.exp (μ - μ') * ∑ c ∈ S, ∑ j, Real.exp (f c j - μ) = ∑ c ∈ S, ∑ j, Real.exp (f c j - μ') := by
  rw [Finset.mul_sum]
  refine Finset.sum_congr rfl fun c _ => ?_
  rw [Finset.mul_sum]
  refine Finset.sum_congr rfl fun j _ => ?_
  rw [← Real.exp_add]; congr 1; ring

/-- The same for the sums weighted by the values. -/
theorem exp_shift_sum_mul {n : ℕ} (f g : ℕ → Fin n → ℝ) (S : Finset ℕ) (μ μ' : ℝ) :
    Real.exp (μ - μ') * ∑ c ∈ S, ∑ j, Real.exp (f c j - μ) * g c j
      = ∑ c ∈ S, ∑ j, Real.exp (f c j - μ') * g c j := by
  rw [Finset.mul_sum]
  refine Finset.sum_congr rfl fun c _ => ?_
  rw [Finset.mul_sum]
  refine Finset.sum_congr rfl fun j _ => ?_
  rw [← mul_assoc, ← Real.exp_add]; congr 2; ring

/-- After `k + 1` chunks of finite scores and values the state is real: some real `μ` and the two sums over all
    the chunks so far, taken against `μ`. -/
theorem runChunks_coe {n : ℕ} (hn : 0 < n) (f g : ℕ → Fin n → ℝ) (k : ℕ) :
    ∃ μ : ℝ, runChunks (fun c j => ((f c j : ℝ) : EReal)) (fun c j => ((g c j : ℝ) : EReal)) (k + 1)
      = ((μ : EReal), ((∑ c ∈ Finset.range (k + 1), ∑ j, Real.exp (f c j - μ) : ℝ) : EReal),
          ((∑ c ∈ Finset.range (k + 1), ∑ j, Real.exp (f c j - μ) * g c j : ℝ) : EReal)) := by
  induction k with
  | zero =>
    obtain ⟨μ, hμ⟩ := chunkStep_init hn (f 0) (g 0)
    refine ⟨μ, ?_⟩
    simp only [runChunks, zero_add, Finset.range_one, Finset.sum_singleton]
    exact hμ
  | succ k ih =>
    obtain ⟨μ, hμ⟩ := ih
    obtain ⟨μ', hμ'⟩ := chunkStep_coe hn (f (k + 1)) (g (k + 1)) μ
      (∑ c ∈ Finset.range (k + 1), ∑ j, Real.exp (f c j - μ))
      (∑ c ∈ Finset.range (k + 1), ∑ j, Real.exp (f c j - μ) * g c j)
    refine ⟨μ', ?_⟩
    rw [runChunks, hμ, hμ', exp_shift_sum, exp_shift_sum_mul,
      Finset.sum_range_succ _ (k + 1), Finset.sum_range_succ _ (k + 1)]

/-- The state after `k` chunks depends only on the first `k` chunks. -/
theorem runChunks_congr {n : ℕ} (s v s' v' : ℕ → Fin n → EReal) (k : ℕ)
    (hs : ∀ c, c < k → s c = s' c) (hv : ∀ c, c < k → v c = v' c) :
    runChunks s v k = runChunks s' v' k := by
  induction k with
  | zero => rfl
  | succ k ih =>
    rw [runChunks, runChunks, ih (fun c hc => hs c (Nat.lt_succ_of_lt hc)) (fun c hc => hv c (Nat.lt_succ_of_lt hc)),
      hs k (Nat.lt_succ_self k), hv k (Nat.lt_succ_self k)]

/-- The streamed value of finite rows after `k ≥ 1` chunks: a quotient of two real sums against some real `μ`. -/
theorem streamed_coe {n : ℕ} (hn : 0 < n) (f g : ℕ → Fin n → ℝ) (k : ℕ) (hk : 0 < k) :
    ∃ μ : ℝ, streamed (fun c j => ((f c j : ℝ) : EReal)) (fun c j => ((g c j : ℝ) : EReal)) k
      = (((∑ c ∈ Finset.range k, ∑ j, Real.exp (f c j - μ) * g c j) /
          (∑ c ∈ Finset.range k, ∑ j, Real.exp (f c j - μ)) : ℝ) : EReal) := by
  obtain ⟨k, rfl⟩ : ∃ k', k = k' + 1 := Nat.exists_eq_succ_of_ne_zero hk.ne'
  haveI : Nonempty (Fin n) := ⟨⟨0, hn⟩⟩
  obtain ⟨μ, hμ⟩ := runChunks_coe hn f g k
  refine ⟨μ, ?_⟩
  have hL : (∑ c ∈ Finset.range (k + 1), ∑ j, Real.exp (f c j - μ)) ≠ 0 :=
    (Finset.sum_pos (fun c _ => Finset.sum_pos (fun j _ => Real.exp_pos _) Finset.univ_nonempty)
      Finset.nonempty_range_add_one).ne'
  rw [streamed, hμ]
  simp only
  rw [Ideal.div_coe hL, one_mul, ← EReal.coe_mul, mul_one_div]

/-- The direct value of a finite row: the same quotient against some real `μ`. -/
theorem direct_coe {N : ℕ} (hN : 0 < N) (f g : Fin N → ℝ) :
    ∃ μ : ℝ, direct (fun n => ((f n : ℝ) : EReal)) (fun n => ((g n : ℝ) : EReal))
      = (((∑ n, Real.exp (f n - μ) * g n) / (∑ n, Real.exp (f n - μ)) : ℝ) : EReal) := by
  haveI : Nonempty (Fin N) := ⟨⟨0, hN⟩⟩
  obtain ⟨μ, hμ⟩ := fold_max_coe Finset.univ Finset.univ_nonempty f
  refine ⟨μ, ?_⟩
  have hL : (∑ n, Real.exp (f n - μ)) ≠ 0 :=
    (Finset.sum_pos (fun j _ => Real.exp_pos _) Finset.univ_nonempty).ne'
  simp only [direct, hμ, max_eq_right (bot_le : (⊥ : EReal) ≤ (μ : EReal)), zero_add, ← EReal.coe_sub,
    Ideal.exp_coe, coe_finset_sum]
  simp only [Ideal.div_coe hL, ← EReal.coe_mul, coe_finset_sum]
  congr 1
  rw [Finset.sum_div]
  refine Finset.sum_congr rfl fun n _ => ?_
  ring

/-- The quotient `(∑ exp (f n - μ) * g n) / ∑ exp (f n - μ)` does not depend on `μ`. -/
theorem ratio_shift {ι : Type} (S : Finset ι) (f g : ι → ℝ) (μ ν : ℝ) :
    (∑ n ∈ S, Real.exp (f n - μ) * g n) / (∑ n ∈ S, Real.exp (f n - μ))
      = (∑ n ∈ S, Real.exp (f n - ν) * g n) / (∑ n ∈ S, Real.exp (f n - ν)) := by
  have h : ∀ n, Real.exp (f n - μ) = Real.exp (ν - μ) * Real.exp (f n - ν) := fun n => by
    rw [← Real.exp_add]; congr 1; ring
  simp only [h, mul_assoc, ← Finset.mul_sum]
  exact mul_div_mul_left _ _ (Real.exp_pos _).ne'

/-- A sum over `k` consecutive blocks of width `w` is the sum over the first `w * k` naturals. -/
theorem sum_blocks (G : ℕ → ℝ) (w k : ℕ) :
    ∑ c ∈ Finset.range k, ∑ j ∈ Finset.range w, G (w * c + j) = ∑ m ∈ Finset.range (w * k), G m := by
  induction k with
  | zero => simp
  | succ k ih => rw [Finset.sum_range_succ, ih, Nat.mul_succ, Finset.sum_range_add]

/-- The same with the blocks and the whole row indexed by `Fin`. -/
theorem sum_chunks {N w k : ℕ} (hN : w * k = N) (G : ℕ → ℝ) :
    ∑ c ∈ Finset.range k, ∑ j : Fin w, G (w * c + j.val) = ∑ n : Fin N, G n.val := by
  subst hN
  rw [Fin.sum_univ_eq_sum_range G (w * k), ← sum_blocks G w k]
  exact Finset.sum_congr rfl fun c _ => Fin.sum_univ_eq_sum_range (fun j => G (w * c + j)) w

/-- A row indexed by `Fin N`, extended by `0` to all the naturals. -/
def ext {N : ℕ} (x : Fin N → ℝ) (m : ℕ) : ℝ := if h : m < N then x ⟨m, h⟩ else 0

theorem ext_mk {N : ℕ} (x : Fin N → ℝ) (m : ℕ) (h : m < N) : ext x m = x ⟨m, h⟩ := dif_pos h

theorem ext_val {N : ℕ} (x : Fin N → ℝ) (n : Fin N) : ext x n.val = x n := dif_pos n.isLt

/-- On a row of finite scores `sN` and finite values `vN`, streamed in eight chunks of 512 keys, the streamed value is the
    direct one: both are `(∑ n, exp (sN n) * vN n) / ∑ n, exp (sN n)`. -/
theorem streamed_eq_direct (sN vN : Fin 4096 → ℝ) (s v : ℕ → Fin 512 → EReal)
    (hs : ∀ (c : ℕ) (hc : c < 8) (j : Fin 512), s c j = ((sN ⟨512 * c + j.val, by have := j.isLt; omega⟩ : ℝ) : EReal))
    (hv : ∀ (c : ℕ) (hc : c < 8) (j : Fin 512), v c j = ((vN ⟨512 * c + j.val, by have := j.isLt; omega⟩ : ℝ) : EReal)) :
    streamed s v 8 = direct (fun n => (sN n : EReal)) (fun n => (vN n : EReal)) := by
  have hrun : runChunks s v 8
      = runChunks (fun c (j : Fin 512) => ((ext sN (512 * c + j.val) : ℝ) : EReal))
          (fun c (j : Fin 512) => ((ext vN (512 * c + j.val) : ℝ) : EReal)) 8 := by
    apply runChunks_congr
    · intro c hc; funext j; rw [hs c hc j, ext_mk]
    · intro c hc; funext j; rw [hv c hc j, ext_mk]
  obtain ⟨μ, hμ⟩ := streamed_coe (by norm_num : 0 < 512) (fun c (j : Fin 512) => ext sN (512 * c + j.val))
    (fun c (j : Fin 512) => ext vN (512 * c + j.val)) 8 (by norm_num)
  obtain ⟨ν, hν⟩ := direct_coe (by norm_num : 0 < 4096) sN vN
  have e1 := sum_chunks (N := 4096) (w := 512) (k := 8) (by norm_num)
    (fun m => Real.exp (ext sN m - μ) * ext vN m)
  have e2 := sum_chunks (N := 4096) (w := 512) (k := 8) (by norm_num) (fun m => Real.exp (ext sN m - μ))
  simp only [ext_val] at e1 e2
  rw [streamed, hrun, ← streamed, hμ, hν, e1, e2, ratio_shift Finset.univ sN vN μ ν]

end Cert.DictRead

end
-- ==== Proof.RefRow.lean ====
/-
  The reference read at an index: entry (b, d) of its [16384, 512] result is the direct softmax read of row b's scores
  against the key dictionary, contracted with column d of the value dictionary.
-/
import proofs.«420344_j66090956750981_3_alg».proof.Proof.Gen.ReferenceIdeal.Read
import proofs.«420344_j66090956750981_3_alg».proof.Proof.RowDefs

noncomputable section

namespace Cert.DictRead

open Idealize.ShloMosaic Idealize.ShloMosaic.ValueIdx Cert.ReferenceIdeal Cert.ReferenceIdeal.Gen

/-- The pattern `0xFF800000` denotes `-∞`. -/
private theorem ofBits_neg_inf : Ideal.ofBits .f32 0xFF800000#32 = (⊥ : EReal) := by
  simp [Ideal.ofBits, Ideal.ieee]

/-- Row `b` of the scores: `s n = ∑ k, x[b, k] * keys[n, k]`. -/
private abbrev scores (x0 : FVec Ideal S8x2048x512 .f32) (x2 : FVec Ideal S4096x512 .f32) (b : Fin 16384) :
    Fin 4096 → EReal :=
  fun n => ∑ k : Fin 512, Cert.ReferenceIdeal.Read.val_main_v0 (F := Ideal) x0 (ix2 b k) * x2 (ix2 n k)

/-- The row maximum as the reference takes it: from `-∞`, and once more against `-∞`. -/
private abbrev rowMax (x0 : FVec Ideal S8x2048x512 .f32) (x2 : FVec Ideal S4096x512 .f32) (b : Fin 16384) : EReal :=
  max ⊥ (Finset.univ.fold max ⊥ (scores x0 x2 b))

/-- A maximum-reduce of a [16384, 4096] array over its second axis, read at row `b`, is the fold of `max` over that
    row from the initial value. -/
private theorem reduceMax_row (y : FVec Ideal S16384x4096 .f32) (init : S_.Idx → Ideal .f32)
    (h' : S16384x4096.ReducesTo [1] S16384) (hu : 0 < S_.numel) (b : Fin 16384) :
    Host.reduce FloatOps.maximumf y init h' hu (ix1 b)
      = Finset.univ.fold max (init (Shape.Idx.first hu)) (fun n : Fin 4096 => y (ix2 b n)) := by
  have h : S16384x4096.Reduces [1] S16384 := by decide
  rw [Host.reduce_eq_fold_single FloatOps.maximumf y init h' h hu (ix1 b)]
  have e : (y ∘ h.lift (ix1 b)) = fun n : Fin 4096 => y (ix2 b n) :=
    funext fun n => congrArg y (funext fun a => Fin.ext (by fin_cases a <;> rfl))
  rw [e]
  rfl

variable (x0 : FVec Ideal S8x2048x512 .f32) (x1 x2 : FVec Ideal S4096x512 .f32)

/-- The score matrix at (b, n). -/
private theorem v1_at (b : Fin 16384) (n : Fin 4096) :
    Cert.ReferenceIdeal.Read.val_main_v1 (F := Ideal) x0 x2 (ix2 b n) = scores x0 x2 b n := by
  rw [Read.val_main_v1_apply]
  refine Finset.sum_congr rfl fun k _ => ?_
  have el : Read.lidx_main_v1 (ix2 b n) k = ix2 b k :=
    funext fun a => Fin.ext (by match a with | ⟨0, _⟩ => rfl | ⟨1, _⟩ => rfl)
  have er : Read.ridx_main_v1 (ix2 b n) k = ix2 n k :=
    funext fun a => Fin.ext (by match a with | ⟨0, _⟩ => rfl | ⟨1, _⟩ => rfl)
  rw [el, er]

/-- The maximum-reduce of the scores at row `b`. -/
private theorem v2_at (b : Fin 16384) :
    Cert.ReferenceIdeal.Read.val_main_v2 (F := Ideal) x0 x2 (ix1 b) = Finset.univ.fold max ⊥ (scores x0 x2 b) := by
  unfold Read.val_main_v2
  rw [reduceMax_row, Read.val_main_cst_apply, Ideal.ofBits_def, ofBits_neg_inf]
  exact congrArg (Finset.univ.fold max ⊥) (funext fun n => v1_at x0 x2 b n)

/-- The row maximum at row `b`. -/
private theorem v4_at (b : Fin 16384) :
    Cert.ReferenceIdeal.Read.val_main_v4 (F := Ideal) x0 x2 (ix1 b) = rowMax x0 x2 b := by
  rw [Read.val_main_v4_apply, Read.val_main_v3_apply, Read.val_main_cst_0_apply, v2_at, Ideal.maximumf_def,
    Ideal.ofBits_def, ofBits_neg_inf]

/-- The row maximum broadcast along the row. -/
private theorem v6_at (b : Fin 16384) (n : Fin 4096) :
    Cert.ReferenceIdeal.Read.val_main_v6 (F := Ideal) x0 x2 (ix2 b n) = rowMax x0 x2 b := by
  rw [Read.val_main_v6_apply, Read.val_main_v5_apply]
  have e : Read.idx_main_v5 (Read.idx_main_v6 (ix2 b n)) = ix1 b :=
    funext fun a => Fin.ext (by match a with | ⟨0, _⟩ => rfl)
  rw [e, v4_at]

/-- The exponential of the shifted score at (b, n). -/
private theorem v8_at (b : Fin 16384) (n : Fin 4096) :
    Cert.ReferenceIdeal.Read.val_main_v8 (F := Ideal) x0 x2 (ix2 b n)
      = Ideal.exp (scores x0 x2 b n - rowMax x0 x2 b) := by
  rw [Read.val_main_v8_apply, Read.val_main_v7_apply, v1_at, v6_at, Ideal.hostUnary_exp_def, Ideal.subf_def]

/-- The normaliser of row `b`: the sum of the exponentials, from `0`. -/
private theorem v9_at (b : Fin 16384) :
    Cert.ReferenceIdeal.Read.val_main_v9 (F := Ideal) x0 x2 (ix1 b)
      = 0 + ∑ n' : Fin 4096, Ideal.exp (scores x0 x2 b n' - rowMax x0 x2 b) := by
  rw [Read.val_main_v9_apply, Read.val_main_cst_1_apply, Ideal.ofBits_def, Ideal.ofBits_zero_f32]
  refine congrArg (0 + ·) (Finset.sum_congr rfl fun k _ => ?_)
  have e : Read.idx_main_v9 (ix1 b) k = ix2 b k :=
    funext fun a => Fin.ext (by match a with | ⟨0, _⟩ => rfl | ⟨1, _⟩ => rfl)
  rw [e, v8_at]

/-- The normaliser broadcast along the row. -/
private theorem v11_at (b : Fin 16384) (n : Fin 4096) :
    Cert.ReferenceIdeal.Read.val_main_v11 (F := Ideal) x0 x2 (ix2 b n)
      = 0 + ∑ n' : Fin 4096, Ideal.exp (scores x0 x2 b n' - rowMax x0 x2 b) := by
  rw [Read.val_main_v11_apply, Read.val_main_v10_apply]
  have e : Read.idx_main_v10 (Read.idx_main_v11 (ix2 b n)) = ix1 b :=
    funext fun a => Fin.ext (by match a with | ⟨0, _⟩ => rfl)
  rw [e, v9_at]

/-- The softmax weight at (b, n). -/
private theorem v12_at (b : Fin 16384) (n : Fin 4096) :
    Cert.ReferenceIdeal.Read.val_main_v12 (F := Ideal) x0 x2 (ix2 b n)
      = Ideal.div (Ideal.exp (scores x0 x2 b n - rowMax x0 x2 b))
          (0 + ∑ n' : Fin 4096, Ideal.exp (scores x0 x2 b n' - rowMax x0 x2 b)) := by
  rw [Read.val_main_v12_apply, v8_at, v11_at, Ideal.hostDivf_def]

/-- Entry (b, d) of the reference's result before its last reshape: the scores of token b are
    `s n = ∑ k, x[b, k] * keys[n, k]`, and the entry is `direct s (values[·, d])`. -/
theorem ref_apply (x0 : FVec Ideal S8x2048x512 .f32) (x1 x2 : FVec Ideal S4096x512 .f32) (b : Fin 16384) (d : Fin 512) :
    Cert.ReferenceIdeal.Read.val_main_v13 (F := Ideal) x0 x1 x2 (ix2 b d)
      = direct (fun n : Fin 4096 => ∑ k : Fin 512, Cert.ReferenceIdeal.Read.val_main_v0 (F := Ideal) x0 (ix2 b k) * x2 (ix2 n k))
          (fun n : Fin 4096 => x1 (ix2 n d)) := by
  rw [Read.val_main_v13_apply]
  unfold direct
  refine Finset.sum_congr rfl fun n _ => ?_
  have el : Read.lidx_main_v13 (ix2 b d) n = ix2 b n :=
    funext fun a => Fin.ext (by match a with | ⟨0, _⟩ => rfl | ⟨1, _⟩ => rfl)
  have er : Read.ridx_main_v13 (ix2 b d) n = ix2 n d :=
    funext fun a => Fin.ext (by match a with | ⟨0, _⟩ => rfl | ⟨1, _⟩ => rfl)
  rw [el, er, v12_at]

end Cert.DictRead

end
-- ==== Proof.Bridge.lean ====
/-
  The two sides are one function on finite inputs: the kernel's streamed read `G` of the reshaped tokens and the two
  dictionaries is the reference's direct read, entry by entry.
-/
import proofs.«420344_j66090956750981_3_alg».proof.Proof.KernelSpec
import proofs.«420344_j66090956750981_3_alg».proof.Proof.RowMath
import proofs.«420344_j66090956750981_3_alg».proof.Proof.RefRow

noncomputable section

namespace Cert.DictRead

open Idealize.ShloMosaic Idealize.ShloMosaic.ValueIdx
open Cert.KernelIdeal Cert.KernelIdeal.Gen

/-- On finite inputs the kernel's result before its last reshape is the reference's: at entry `(b, d)` both are the
    softmax-weighted average of column `d` of the value dictionary under token `b`'s scores (`streamed_eq_direct`). -/
theorem G_eq_ref (x0 : FVec Ideal S8x2048x512 .f32) (x1 x2 : FVec Ideal S4096x512 .f32)
    (h0 : ∀ i, ∃ r : ℝ, x0 i = (r : EReal)) (h1 : ∀ i, ∃ r : ℝ, x1 i = (r : EReal)) (h2 : ∀ i, ∃ r : ℝ, x2 i = (r : EReal)) :
    G (shapeCast S16384x512 x0 Cert.KernelIdeal.Gen.shapeCasts_S8x2048x512_S16384x512)
        (truncf .bf16 x2 Cert.KernelIdeal.Gen.bitsLt_bf16_f32) (truncf .bf16 x1 Cert.KernelIdeal.Gen.bitsLt_bf16_f32)
      = Cert.ReferenceIdeal.Read.val_main_v13 (F := Ideal) x0 x1 x2 := by
  funext i
  obtain ⟨b, d, rfl⟩ : ∃ (b : Fin 16384) (d : Fin 512), i = ix2 b d := ⟨i 0, i 1, eq_ix2 i⟩
  rw [ref_apply]
  unfold G
  choose r0 hr0 using h0
  choose r1 hr1 using h1
  choose r2 hr2 using h2
  -- the token array at (b, k) is the argument at the reshape's source index, a real
  have hX : ∀ k : Fin 512,
      shapeCast S16384x512 x0 Cert.KernelIdeal.Gen.shapeCasts_S8x2048x512_S16384x512 (ix2 b k)
        = ((r0 (Cert.ReferenceIdeal.Read.idx_main_v0 (ix2 b k)) : ℝ) : EReal) := fun k =>
    (Cert.ReferenceIdeal.Read.val_main_v0_apply (F := Ideal) x0 (ix2 b k)).trans (hr0 _)
  -- a dictionary narrowed to bf16 is the dictionary itself on the extended reals
  have hK : ∀ (n : Fin 4096) (k : Fin 512),
      truncf .bf16 x2 Cert.KernelIdeal.Gen.bitsLt_bf16_f32 (ix2 n k) = ((r2 (ix2 n k) : ℝ) : EReal) := fun n k =>
    hr2 (ix2 n k)
  have hV : ∀ (n : Fin 4096),
      truncf .bf16 x1 Cert.KernelIdeal.Gen.bitsLt_bf16_f32 (ix2 n d) = ((r1 (ix2 n d) : ℝ) : EReal) := fun n =>
    hr1 (ix2 n d)
  refine (streamed_eq_direct
    (fun n : Fin 4096 => ∑ k : Fin 512, r0 (Cert.ReferenceIdeal.Read.idx_main_v0 (ix2 b k)) * r2 (ix2 n k))
    (fun n : Fin 4096 => r1 (ix2 n d)) _ _ ?hs ?hv).trans ?_
  case hs =>
    intro c hc j
    have hj := j.isLt
    beta_reduce
    unfold tokenScore
    rw [dif_pos (show 512 * c + j.val < 4096 by omega), ← coe_sum_mul]
    refine Finset.sum_congr rfl fun k _ => ?_
    rw [hX, hK]
  case hv =>
    intro c hc j
    have hj := j.isLt
    beta_reduce
    unfold valEntry
    rw [dif_pos (show 512 * c + j.val < 4096 by omega)]
    exact hV _
  · congr 1
    · funext n
      rw [← coe_sum_mul]
      refine Finset.sum_congr rfl fun k _ => ?_
      rw [Cert.ReferenceIdeal.Read.val_main_v0_apply, hr0, hr2]
    · funext n
      exact (hr1 _).symm

end Cert.DictRead

end
-- ==== Proof.Finite.lean ====
/-
  The precondition read: where every float input is finite, every entry of the three argument arrays is a real
  number.
-/
import proofs.«420344_j66090956750981_3_alg».proof.Pre_finite_inputs
import Idealize.ShloMosaic.PureOps.Ideal
import Idealize.ShloMosaic.Lib.ReduceAll

noncomputable section

namespace Cert.DictRead

open Idealize.ShloMosaic

variable [Cert.Pre_finite_inputs.Facts]

/-- The rank-zero shape has one index. -/
private instance subsingleton_scalar_idx : Subsingleton Cert.Pre_finite_inputs.S_.Idx :=
  ⟨fun a b => funext fun d => d.elim0⟩

/-- The pattern `0x7F800000` denotes `+∞`. -/
private theorem ofBits_inf : Ideal.ofBits .f32 0x7F800000#32 = (⊤ : EReal) := by
  simp [Ideal.ofBits, Ideal.ieee]

/-- An extended real whose absolute value `max e (-e)` lies strictly below `+∞` is a real number. -/
private theorem real_of_abs_lt_top (e : EReal)
    (h : Ideal.cmp .olt (max e (-e)) (Ideal.ofBits .f32 0x7F800000#32) = 1#1) : ∃ r : ℝ, e = (r : EReal) := by
  rw [ofBits_inf] at h
  induction e using EReal.rec with
  | bot => simp [Ideal.cmp] at h
  | top => simp [Ideal.cmp] at h
  | coe r => exact ⟨r, rfl⟩

/-- Where `finite_inputs` holds (its one bit is set), every entry of `x`, of the value dictionary and of the key
    dictionary is a real number: `|e| < +∞` excludes both infinities. -/
theorem real_of_finite (x0 : FVec Ideal Cert.Pre_finite_inputs.S8x2048x512 .f32)
    (x1 x2 : FVec Ideal Cert.Pre_finite_inputs.S4096x512 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h (fun a => a.elim0)
  dsimp only [Cert.Pre_finite_inputs.fn] at h0
  obtain ⟨h01, h2⟩ := IntOp.andi_eq_one.1 h0
  obtain ⟨h0', h1⟩ := IntOp.andi_eq_one.1 h01
  exact ⟨fun i => real_of_abs_lt_top _ (Host.reduce_andi_all _ _ _ _ _ h0' i),
    fun i => real_of_abs_lt_top _ (Host.reduce_andi_all _ _ _ _ _ h1 i),
    fun i => real_of_abs_lt_top _ (Host.reduce_andi_all _ _ _ _ _ h2 i)⟩

end Cert.DictRead

end
-- ==== Proof.lean ====
/-
  The certificate of the dictionary read: a softmax attention of 16384 tokens over a dictionary of 4096 key and value
  rows, computed by the kernel as a streamed (online) softmax in eight chunks of 512 rows with the normalisation
  deferred to one division, against the reference's plain `softmax (x · keysᵀ) · values`.

  At the ideal values both programs compute, at token `b` and column `d`,
  `(∑ n, exp (s n) * values[n, d]) / ∑ n, exp (s n)` with `s n = ∑ k, x[b, k] * keys[n, k]`:
  * the kernel's body is eight applications of one chunk step (StepVec), which read at a token and a column is a scalar
    step on that token's row of scores (StepApply, BodyRow); its sixteen blocks tile the result (KernelSpec,
    KernelValue);
  * the reference read at an index is the direct softmax read (RefRow);
  * on finite rows the streamed read equals the direct one (RowDefs, RowMath): the running maximum only rescales, and
    the rescalings cancel in the final quotient; the initial maximum, the named constant `neg_big`, denotes `-∞`, whose
    exponential is `0`;
  * the precondition makes every input entry a real number (Finite), and the two sides meet in Bridge.
  The three frames are the generated ones (the reference's is its generated run with the result dropped), and the one
  ledger entry is the named constant's statement.
-/
import proofs.«420344_j66090956750981_3_alg».proof.Defs
import proofs.«420344_j66090956750981_3_alg».proof.Proof.Gen.Kernel
import proofs.«420344_j66090956750981_3_alg».proof.Proof.Gen.Kernel.Skeleton
import proofs.«420344_j66090956750981_3_alg».proof.Proof.Gen.Kernel.Launch
import proofs.«420344_j66090956750981_3_alg».proof.Proof.Gen.Kernel.Points
import proofs.«420344_j66090956750981_3_alg».proof.Proof.Gen.Kernel.Frame
import proofs.«420344_j66090956750981_3_alg».proof.Proof.Gen.KernelIdeal
import proofs.«420344_j66090956750981_3_alg».proof.Proof.Gen.KernelIdeal.Skeleton
import proofs.«420344_j66090956750981_3_alg».proof.Proof.Gen.KernelIdeal.Launch
import proofs.«420344_j66090956750981_3_alg».proof.Proof.Gen.KernelIdeal.Points
import proofs.«420344_j66090956750981_3_alg».proof.Proof.Gen.KernelIdeal.Frame
import proofs.«420344_j66090956750981_3_alg».proof.Proof.Gen.ReferenceIdeal
import proofs.«420344_j66090956750981_3_alg».proof.Proof.Gen.Pre_finite_inputs
import proofs.«420344_j66090956750981_3_alg».proof.Proof.Gen.ReferenceIdeal.Run
import proofs.«420344_j66090956750981_3_alg».proof.Proof.Gen.ReferenceIdeal.Read
import proofs.«420344_j66090956750981_3_alg».proof.Proof.KernelValue
import proofs.«420344_j66090956750981_3_alg».proof.Proof.Bridge
import proofs.«420344_j66090956750981_3_alg».proof.Proof.Finite
import Idealize.ShloMosaic.Adequacy
import Idealize.ShloMosaic.Init

noncomputable section

namespace Cert.Proof

open Idealize.ShloMosaic Idealize.SL.Sem

/-- The reference has no kernel: its frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ledger's one entry: the table gives `neg_big` the value `-∞`, and the printed constant is that value. -/
theorem preserves : Cert.preserves_Kernel_KernelIdeal :=
  IdealRules.named_const.statement Cert.KernelIdeal.κ "neg_big" .f32 0xF149F2CA#32 ⊥ rfl

/-- Both runs end with the reshape of one [16384, 512] array: the kernel's streamed read `G`, which on finite inputs is
    the reference's direct read (`G_eq_ref`). -/
theorem algebraic : Cert.algebraic_KernelIdeal_ReferenceIdeal := by
  intro m ρ m' ρ' hpre hagree
  refine ⟨_, Cert.DictRead.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨h0, h1, h2⟩ := Cert.DictRead.real_of_finite _ _ _ (hpre c)
  unfold Cert.ReferenceIdeal.Read.val_main_v14
  rw [← Cert.DictRead.G_eq_ref _ _ _ h0 h1 h2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref, preserves, algebraic⟩

end Cert.Proof

end
